-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x256 .f32) (main_arg1 : IVec S2x800000 32) (main_arg2 : FVec F S256x128 .f32) (main_arg3 : FVec F S128 .f32) (main_arg4 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S50000x128 : Shape := ⟨2, ![50000, 128]⟩
abbrev S5000x256 : Shape := ⟨2, ![5000, 256]⟩
abbrev S5000x128 : Shape := ⟨2, ![5000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 65
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S50000x128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S1x128, .f32⟩
  | .hbm, ⟨64, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x256_S256x128_S5000x128_1_0_0_1_n_n_wf : DotDims.WF S5000x256 S256x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .i1⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Region0.lean ====
import proofs.«157456_j10007273799960_1_alg».proof.Proof.Gen.KernelIdeal.Frame
import Idealize.ShloMosaic.Lib.Pipeline.Value
import Idealize.ShloMosaic.Lib.ValueIdx
import Idealize.ShloMosaic.PureOps.Ideal.Laws

/-!
The first pallas_call: `h = x · W` over the extended reals.

The grid has ten points; point `t` loads rows `5000 t … 5000 t + 4999` of `x` and the whole of `W`, rounds both to bf16
(the identity on extended reals), multiplies them into a zero accumulator and writes the product back as the same rows
of the result. So entry `(r, c)` of the result is `∑ k, x (r, k) · W (k, c)` whichever point wrote it, and the ten row
blocks tile the 50000 rows.
-/

set_option maxRecDepth 16384

noncomputable section

open Idealize.ShloMosaic Idealize.ShloMosaic.TcCoe Idealize.SL.Sem
open Idealize.ShloMosaic.Pipeline (Dat)

namespace Cert.KernelIdeal.Lin

open Cert.KernelIdeal Cert.KernelIdeal.Gen

/-! ## The product, index by index -/

/-- Row `i 0` of the left factor at column `k`. -/
abbrev lrow (i : S50000x128.Idx) (k : Fin 256) : S50000x256.Idx := fun a => match a with
  | ⟨0, _⟩ => ⟨(i 0).val, (i 0).isLt⟩
  | ⟨1, _⟩ => ⟨k.val, k.isLt⟩
/-- Column `i 1` of the right factor at row `k`. -/
abbrev rcol (i : S50000x128.Idx) (k : Fin 256) : S256x128.Idx := fun a => match a with
  | ⟨0, _⟩ => ⟨k.val, k.isLt⟩
  | ⟨1, _⟩ => ⟨(i 1).val, (i 1).isLt⟩

/-- The matrix product over the extended reals. -/
def lin (x : S50000x256.Idx → EReal) (w : S256x128.Idx → EReal) : S50000x128.Idx → EReal :=
  fun i => ∑ k : Fin 256, x (lrow i k) * w (rcol i k)

/-! ## One block's product -/

/-- Inside a block of 5000 rows: row `y 0` at column `k`. -/
abbrev lrowB (y : S5000x128.Idx) (k : Fin 256) : S5000x256.Idx := fun a => match a with
  | ⟨0, _⟩ => ⟨(y 0).val, (y 0).isLt⟩
  | ⟨1, _⟩ => ⟨k.val, k.isLt⟩
abbrev rcolB (y : S5000x128.Idx) (k : Fin 256) : S256x128.Idx := fun a => match a with
  | ⟨0, _⟩ => ⟨k.val, k.isLt⟩
  | ⟨1, _⟩ => ⟨(y 1).val, (y 1).isLt⟩

theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- What one grid point stores, at an entry of its block: the rounding to bf16 is the identity on extended reals and the
    accumulator starts at zero, so it is the plain sum of products over the 256 contracted columns. -/
theorem pay_apply (x0 : Vec Ideal S5000x256 .f32) (x1 : Vec Ideal S256x128 .f32) (y : S5000x128.Idx) :
    k0_pay1 (F := Ideal) x0 x1 y = ∑ k : Fin 256, x0 (lrowB y k) * x1 (rcolB y k) := by
  unfold k0_pay1
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx y ((ValueIdx.contrEquiv1 dot_S5000x256_S256x128_S5000x128_1_0_0_1_n_n 256 rfl rfl).symm k) = lrowB y k := funext fun a => Fin.ext (by
    match a with
    | ⟨0, _⟩ => exact lhs_0 _ _
    | ⟨1, _⟩ => exact (lhs_1 _ _).trans hk)
  have er : dot_S5000x256_S256x128_S5000x128_1_0_0_1_n_n.rhsIdx y ((ValueIdx.contrEquiv1 dot_S5000x256_S256x128_S5000x128_1_0_0_1_n_n 256 rfl rfl).symm k) = rcolB y k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at a point: the rows of `x` and of the result move together with the point, the
    columns do not move, and `W` is always its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of `x` at point `t` is rows `5000 t + ·` of the array. -/
theorem xblk_apply (c : Dev nD) (t : Fin cfg0.N) (y : S5000x256.Idx) (k : S50000x256.Idx)
    (h0 : (k 0).val = t.val * 5000 + (y 0).val) (h1 : (k 1).val = (y 1).val) :
    (iblk0 V c 0 t : Vec Ideal S5000x256 .f32) y = (V c main_arg0 : S50000x256.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e0, h0]; omega
  | ⟨1, _⟩ => show win0_0.index t (1 : Fin 2) * 256 + 1 * (y 1).val = (k 1).val; rw [e1, h1]; omega

/-- The block of `W` at any point is the whole array. -/
theorem wblk_apply (c : Dev nD) (t : Fin cfg0.N) (y : S256x128.Idx) (k : S256x128.Idx)
    (h0 : (k 0).val = (y 0).val) (h1 : (k 1).val = (y 1).val) :
    (iblk0 V c 1 t : Vec Ideal S256x128 .f32) y = (V c main_arg2 : S256x128.Idx → EReal) k := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 256 + 1 * (y 0).val = (k 0).val; rw [e2, h0]; omega
  | ⟨1, _⟩ => show win0_1.index t (1 : Fin 2) * 128 + 1 * (y 1).val = (k 1).val; rw [e3, h1]; omega

/-- What point `t` writes back is block `t` of the product of the arrays the region found. -/
theorem flushed_eq (c : Dev nD) (t : Fin cfg0.N) :
    (dat0 V c).flushed 2 t = ((cfg0.win 2).blk t).view.read (Elt Ideal) (lin (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨-, -, -, -, e4, e5⟩ := idx_facts t
  funext j
  rw [View.read_apply]
  refine (pay_apply (iblk0 V c 0 t) (iblk0 V c 1 t) j).trans ?_
  unfold lin
  refine Finset.sum_congr rfl fun k _ => ?_
  have hj0 : ((((cfg0.win 2).blk t).view.emb j) 0).val = t.val * 5000 + (j 0).val := by
    show win0_2.index t (0 : Fin 2) * 5000 + 1 * (j 0).val = _; rw [e4]; omega
  have hj1 : ((((cfg0.win 2).blk t).view.emb j) 1).val = (j 1).val := by
    show win0_2.index t (1 : Fin 2) * 128 + 1 * (j 1).val = _; rw [e5]; omega
  rw [xblk_apply V c t (lrowB j k) (lrow (((cfg0.win 2).blk t).view.emb j) k) hj0 rfl,
    wblk_apply V c t (rcolB j k) (rcol (((cfg0.win 2).blk t).view.emb j) k) rfl hj1]

/-- An index of the result is in point `t`'s block iff its row is among the point's 5000 rows. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The ten row blocks cover the result array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- After the first pallas_call its result array holds `x · W` of the arrays the region found. -/
theorem final (c : Dev nD) : (dat0 V c).arrAt 2 cfg0.N = lin (V c main_arg0) (V c main_arg2) :=
  (dat0 V c).arrAt_eq_of_cover 2 (lin (V c main_arg0) (V c main_arg2)) (fun t _ => flushed_eq V c t) cover

end Cert.KernelIdeal.Lin

end
-- ==== Proof.Region1.lean ====
import proofs.«157456_j10007273799960_1_alg».proof.Proof.Gen.KernelIdeal.Frame
import Idealize.ShloMosaic.Lib.Pipeline.Value
import Idealize.ShloMosaic.Lib.ValueIdx

/-!
The second pallas_call: bias, then the per-channel leaky rectifier.

Point `t` of its ten loads rows `5000 t … 5000 t + 4999` of the aggregated array `A` and the two `[1, 128]` rows `b` and
`a` whole, and writes `where(v > 0, v, a_c · v)` with `v = A (r, c) + b_c` back as the same rows of the result. Every entry
of the result depends on the one entry of `A` at its own position and on its channel's bias and slope only, and the ten row
blocks tile the 50000 rows.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Act

open Cert.KernelIdeal Cert.KernelIdeal.Gen

/-! ## The activation, entry by entry -/

/-- The leaky rectifier at one entry: `v` where `v > 0`, else `al · v`. -/
def act1 (v al : EReal) : EReal :=
  Scalar.select (FloatOps.cmpf (F := Ideal) (φ := .f32) .ogt v (Scalar.ofBits (F := Ideal) .f32 0x00000000#32)) v (al * v)

/-- Channel `i 1` in a `[1, 128]` row. -/
abbrev chan (i : S50000x128.Idx) : S1x128.Idx := fun a => match a with
  | ⟨0, _⟩ => ⟨0, Nat.zero_lt_one⟩
  | ⟨1, _⟩ => ⟨(i 1).val, (i 1).isLt⟩

/-- Bias and activation of a whole `[50000, 128]` array by two `[1, 128]` rows. -/
def act (A : S50000x128.Idx → EReal) (b2 a2 : S1x128.Idx → EReal) : S50000x128.Idx → EReal :=
  fun i => act1 (A i + b2 (chan i)) (a2 (chan i))

/-! ## One block -/

abbrev chanB (y : S5000x128.Idx) : S1x128.Idx := fun a => match a with
  | ⟨0, _⟩ => ⟨0, Nat.zero_lt_one⟩
  | ⟨1, _⟩ => ⟨(y 1).val, (y 1).isLt⟩

/-- A `[1, 128]` row broadcast over 5000 rows, read at an entry, is the row at the entry's channel. -/
theorem bcast_row (v : S1x128.Idx → EReal) (y : S5000x128.Idx) :
    broadcastTo S5000x128 v broadcasts_S1x128_S5000x128 y = v (chanB y) :=
  broadcastTo_apply v _ y (chanB y) fun a => by
    match a with
    | ⟨0, _⟩ => rfl
    | ⟨1, _⟩ => rfl

/-- What one grid point stores, at an entry of its block. -/
theorem pay_apply (x0 : Vec Ideal S5000x128 .f32) (x1 x2 : Vec Ideal S1x128 .f32) (y : S5000x128.Idx) :
    k1_pay1 (F := Ideal) x0 x1 x2 y = act1 (x0 y + x1 (chanB y)) (x2 (chanB y)) := by
  unfold k1_pay1 act1
  simp only [shapeCast_self]
  rw [select_apply, cmpf_apply, mulf_apply, addf_apply, bcast_row, bcast_row]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The four windows' block indices at a point: the rows of `A` and of the result move together with the point; the two
    rows `b`, `a` are always their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of `A` at point `t` is rows `5000 t + ·` of the array. -/
theorem ablk_apply (c : Dev nD) (t : Fin cfg1.N) (y : S5000x128.Idx) (k : S50000x128.Idx)
    (h0 : (k 0).val = t.val * 5000 + (y 0).val) (h1 : (k 1).val = (y 1).val) :
    (iblk1 V c 0 t : Vec Ideal S5000x128 .f32) y = (V c main_v43 : S50000x128.Idx → EReal) k := by
  obtain ⟨e0, e1, -⟩ := idx_facts t
  unfold iblk1
  rw [View.read_apply]
  show V c main_v43 _ = V c main_v43 _
  congr 1
  funext a
  apply Fin.ext
  match a with
  | ⟨0, _⟩ => show win1_0.index t (0 : Fin 2) * 5000 + 1 * (y 0).val = (k 0).val; rw [e0, h0]; omega
  | ⟨1, _⟩ => show win1_0.index t (1 : Fin 2) * 128 + 1 * (y 1).val = (k 1).val; rw [e1, h1]; omega

/-- The block of the bias row at any point is the whole row. -/
theorem bblk_apply (c : Dev nD) (t : Fin cfg1.N) (y : S1x128.Idx) (k : S1x128.Idx)
    (h0 : (k 0).val = (y 0).val) (h1 : (k 1).val = (y 1).val) :
    (iblk1 V c 1 t : Vec Ideal S1x128 .f32) y = (V c main_v44 : S1x128.Idx → EReal) k := by
  obtain ⟨-, -, e2, e3, -⟩ := idx_facts t
  unfold iblk1
  rw [View.read_apply]
  show V c main_v44 _ = V c main_v44 _
  congr 1
  funext a
  apply Fin.ext
  match a with
  | ⟨0, _⟩ => show win1_1.index t (0 : Fin 2) * 1 + 1 * (y 0).val = (k 0).val; rw [e2, h0]; omega
  | ⟨1, _⟩ => show win1_1.index t (1 : Fin 2) * 128 + 1 * (y 1).val = (k 1).val; rw [e3, h1]; omega

/-- The block of the slope row at any point is the whole row. -/
theorem sblk_apply (c : Dev nD) (t : Fin cfg1.N) (y : S1x128.Idx) (k : S1x128.Idx)
    (h0 : (k 0).val = (y 0).val) (h1 : (k 1).val = (y 1).val) :
    (iblk1 V c 2 t : Vec Ideal S1x128 .f32) y = (V c main_v45 : S1x128.Idx → EReal) k := by
  obtain ⟨-, -, -, -, e4, e5, -⟩ := idx_facts t
  unfold iblk1
  rw [View.read_apply]
  show V c main_v45 _ = V c main_v45 _
  congr 1
  funext a
  apply Fin.ext
  match a with
  | ⟨0, _⟩ => show win1_2.index t (0 : Fin 2) * 1 + 1 * (y 0).val = (k 0).val; rw [e4, h0]; omega
  | ⟨1, _⟩ => show win1_2.index t (1 : Fin 2) * 128 + 1 * (y 1).val = (k 1).val; rw [e5, h1]; omega

/-- What point `t` writes back is block `t` of the activation of the arrays the region found. -/
theorem flushed_eq (c : Dev nD) (t : Fin cfg1.N) :
    (dat1 V c).flushed 3 t = ((cfg1.win 3).blk t).view.read (Elt Ideal) (act (V c main_v43) (V c main_v44) (V c main_v45)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨-, -, -, -, -, -, e6, e7⟩ := idx_facts t
  funext j
  rw [View.read_apply]
  refine (pay_apply (iblk1 V c 0 t) (iblk1 V c 1 t) (iblk1 V c 2 t) j).trans ?_
  unfold act
  have hj0 : ((((cfg1.win 3).blk t).view.emb j) 0).val = t.val * 5000 + (j 0).val := by
    show win1_3.index t (0 : Fin 2) * 5000 + 1 * (j 0).val = _; rw [e6]; omega
  have hj1 : ((((cfg1.win 3).blk t).view.emb j) 1).val = (j 1).val := by
    show win1_3.index t (1 : Fin 2) * 128 + 1 * (j 1).val = _; rw [e7]; omega
  rw [ablk_apply V c t j (((cfg1.win 3).blk t).view.emb j) hj0 hj1,
    bblk_apply V c t (chanB j) (chan (((cfg1.win 3).blk t).view.emb j)) rfl hj1,
    sblk_apply V c t (chanB j) (chan (((cfg1.win 3).blk t).view.emb j)) rfl hj1]
  rfl

/-- An index of the result is in point `t`'s block iff its row is among the point's 5000 rows. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v46).slice (win1_3.rect t)).set ↔ _
  rw [View.set_slice_whole, Rect.mem_set_unit]
  exact Iff.rfl

/-- The ten row blocks cover the result array. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, e6, e7⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 128 ≤ (i 1).val ∧ (i 1).val < win1_3.index t (1 : Fin 2) * 128 + 128; rw [e7]; omega

/-- After the second pallas_call its result array holds the activation of the arrays the region found. -/
theorem final (c : Dev nD) : (dat1 V c).arrAt 3 cfg1.N = act (V c main_v43) (V c main_v44) (V c main_v45) :=
  (dat1 V c).arrAt_eq_of_cover 3 (act (V c main_v43) (V c main_v44) (V c main_v45)) (fun t _ => flushed_eq V c t) cover

end Cert.KernelIdeal.Act

end
-- ==== Proof.HostChain.lean ====
import proofs.«157456_j10007273799960_1_alg».proof.Proof.Gen.KernelIdeal.Frame
import Idealize.ShloMosaic.Lib.StableHlo.Run

/-!
Between the two pallas_calls the kernel's program runs the same graph operations on the host as the reference does:
from the first call's result `h` and the edge list it builds `src`, `dst` (self loops appended), the degrees, the
symmetric normalisation `norm = dinv[src] · dinv[dst]` and `agg = segment_sum(h[src] · norm, dst)`; and it reshapes the
bias and the slope to `[1, 128]` rows. Here the three arrays the second call reads are read back through those
stretches as terms of what the first call left: `agg h edges` (the aggregation stretch under one name, never opened) and
the two reshaped rows.
-/

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
/-- The aggregation stretch: from the transformed features `h` and the edge list `ei` to
    `segment_sum(h[src] · norm, dst)`, with `src`, `dst`, the degrees and the symmetric normalisation all
    computed from `ei` alone. -/
def agg (h : (⟨S50000x128, .f32⟩ : BufTy).Contents (Elt F)) (ei : (⟨S2x800000, .i32⟩ : BufTy).Contents (Elt F)) :
    (⟨S50000x128, .f32⟩ : BufTy).Contents (Elt F) :=
  (Host.scatterAdd scatter_S50000x128_S850000x1_S850000x128_1_0_0_1 (broadcastInDim S50000x128 ![] bcast_S_S50000x128 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (mulf (Host.gather gather_S50000x128_S850000x1_S850000x128_1_0_n_n_0_1_1128 h (broadcastInDim S850000x1 ![0] bcast_S850000_S850000x1_0 (select (cmpi .slt (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0)))) (broadcastInDim S850000x128 ![0, 1] bcast_S850000x1_S850000x128_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)))))))))

variable (m : (ℓ : Loc nD τ sig) → Buf (Elt F) ℓ) (ρ : Dev nD → PrngReg)

/-- The first call writes neither the edge list … -/
theorem W1_arg1 (c : Dev nD) : W1 m ρ c (Proc.devRef .tc main_arg1) = m ((c : Thread nD τ).loc main_arg1) :=
  W1_of_ne m ρ c main_arg1 (by decide)
/-- … nor the bias … -/
theorem W1_arg3 (c : Dev nD) : W1 m ρ c (Proc.devRef .tc main_arg3) = m ((c : Thread nD τ).loc main_arg3) :=
  W1_of_ne m ρ c main_arg3 (by decide)
/-- … nor the slope. -/
theorem W1_arg4 (c : Dev nD) : W1 m ρ c (Proc.devRef .tc main_arg4) = m ((c : Thread nD τ).loc main_arg4) :=
  W1_of_ne m ρ c main_arg4 (by decide)

set_option maxRecDepth 8192 in
set_option maxHeartbeats 4000000 in
/-- The aggregated array the second call reads, as the stretches' operations applied to the buffers the first call left. -/
theorem v43_eq_left (c : Dev nD) :
    V4 m ρ c main_v43 = agg (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v43) = _
  after_results_simp <;> rfl <;> (unfold agg; rfl)

/-- The aggregated array the second call reads is the aggregation stretch of what the first call left and of the edge
    list as launched. -/
theorem v43_eq (c : Dev nD) :
    V4 m ρ c main_v43 = agg (W1 m ρ c (Proc.devRef .tc main_v0)) (m ((c : Thread nD τ).loc main_arg1)) :=
  (v43_eq_left m ρ c).trans (by rw [W1_arg1])

/-- The bias row the second call reads is the bias reshaped to `[1, 128]`. -/
theorem v44_eq (c : Dev nD) :
    V4 m ρ c main_v44 = shapeCast S1x128 (m ((c : Thread nD τ).loc main_arg3)) shapeCasts_S128_S1x128 := by
  show StableHlo.after hostOps1_2 (StableHlo.after hostOps1_1 (StableHlo.after hostOps1 (W1 m ρ c))) (Proc.devRef .tc main_v44) = _
  after_results_simp
  rw [W1_arg3]
  rfl

/-- The slope row the second call reads is the slope reshaped to `[1, 128]`. -/
theorem v45_eq (c : Dev nD) :
    V4 m ρ c main_v45 = shapeCast S1x128 (m ((c : Thread nD τ).loc main_arg4)) shapeCasts_S128_S1x128 := by
  show StableHlo.after hostOps1_2 (StableHlo.after hostOps1_1 (StableHlo.after hostOps1 (W1 m ρ c))) (Proc.devRef .tc main_v45) = _
  after_results_simp
  rw [W1_arg4]
  rfl

end Cert.KernelIdeal.Chain

end
-- ==== Proof.RefTerm.lean ====
import proofs.«157456_j10007273799960_1_alg».proof.Defs
import proofs.«157456_j10007273799960_1_alg».proof.Proof.RefRun

/-!
The reference's result term, cut at the two places where the kernel's program differs from it.

Write `h = x · W` for the linear transform, `src`, `dst` for the edge lists with the self loops appended,
`deg = segment_sum(1, dst)`, `dinv = where(deg > 0, rsqrt deg, 0)` and `norm = dinv[src] · dinv[dst]`. The reference
computes `agg = segment_sum(h[src] · norm, dst)` and returns `where(agg + b > 0, agg + b, a · (agg + b))`.
Here the middle stretch — everything between `h` and `agg`, a function of `h` and of the edge list only — is
named `agg`, and the closing stretch `epi`; the reference's composed term is `epi (agg (x · W) edges) b a`
by unfolding the two names. Nothing in `agg` is ever opened: the kernel's program applies the same operations to
its own `h`, so the two sides meet as soon as the two `h` are equal.
-/

noncomputable section

namespace Cert.ReferenceIdeal.Bridge

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The aggregation stretch: from the transformed features `h` and the edge list `ei` to
    `segment_sum(h[src] · norm, dst)`, with `src`, `dst`, the degrees and the symmetric normalisation all
    computed from `ei` alone. -/
def agg (h : (⟨S50000x128, .f32⟩ : BufTy).Contents (Elt F)) (ei : (⟨S2x800000, .i32⟩ : BufTy).Contents (Elt F)) :
    (⟨S50000x128, .f32⟩ : BufTy).Contents (Elt F) :=
  (Host.scatterAdd scatter_S50000x128_S850000x1_S850000x128_1_0_0_1 (broadcastInDim S50000x128 ![] bcast_S_S50000x128 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (mulf (Host.gather gather_S50000x128_S850000x1_S850000x128_1_0_n_n_0_1_1128 h (broadcastInDim S850000x1 ![0] bcast_S850000_S850000x1_0 (select (cmpi .slt (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0)))) (broadcastInDim S850000x128 ![0, 1] bcast_S850000x1_S850000x128_0_1 (broadcastInDim S850000x1 ![0] bcast_S850000_S850000x1_0 (mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0) (broadcastInDim S850000 ![] bcast_S_S850000 (constantI S_ 32 0#32))) (addi (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0) (broadcastInDim S850000 ![] bcast_S_S850000 (constantI S_ 32 50000#32))) (concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0)))))))))

/-- The closing stretch: bias, then the per-channel leaky rectifier `v ↦ where(v > 0, v, a · v)`. -/
def epi (A : (⟨S50000x128, .f32⟩ : BufTy).Contents (Elt F)) (b a : (⟨S128, .f32⟩ : BufTy).Contents (Elt F)) :
    (⟨S50000x128, .f32⟩ : BufTy).Contents (Elt F) :=
  select (cmpf (F := F) .ogt (addf A (broadcastInDim S50000x128 ![0, 1] bcast_S1x128_S50000x128_0_1 (broadcastInDim S1x128 ![1] bcast_S128_S1x128_1 b))) (broadcastInDim S50000x128 ![] bcast_S_S50000x128 (constant S_ .f32 0x00000000#32))) (addf A (broadcastInDim S50000x128 ![0, 1] bcast_S1x128_S50000x128_0_1 (broadcastInDim S1x128 ![1] bcast_S128_S1x128_1 b))) (mulf (broadcastInDim S50000x128 ![0, 1] bcast_S1x128_S50000x128_0_1 (broadcastInDim S1x128 ![1] bcast_S128_S1x128_1 a)) (addf A (broadcastInDim S50000x128 ![0, 1] bcast_S1x128_S50000x128_0_1 (broadcastInDim S1x128 ![1] bcast_S128_S1x128_1 b))))

set_option maxRecDepth 8192 in
/-- The reference's composed result is the closing stretch of the aggregation of `x · W`. -/
theorem res_eq (m : (ℓ : Loc nD τ sig) → Buf (Elt F) ℓ) (c : Dev nD) :
    ValueP.res_main_v52 m c
      = epi (agg (Host.dotGeneral dot_S50000x256_S256x128_S50000x128_1_0_0_1_n_n none (m ((c.tc : Thread nD τ).loc main_arg0)) (m ((c.tc : Thread nD τ).loc main_arg2))) (m ((c.tc : Thread nD τ).loc main_arg1)))
          (m ((c.tc : Thread nD τ).loc main_arg3)) (m ((c.tc : Thread nD τ).loc main_arg4)) := by
  unfold ValueP.res_main_v52 epi agg
  rfl

end Cert.ReferenceIdeal.Bridge

end
-- ==== Proof.Bridge.lean ====
import proofs.«157456_j10007273799960_1_alg».proof.Proof.Region0
import proofs.«157456_j10007273799960_1_alg».proof.Proof.Region1
import proofs.«157456_j10007273799960_1_alg».proof.Proof.HostChain
import proofs.«157456_j10007273799960_1_alg».proof.Proof.RefTerm
import Idealize.ShloMosaic.Lib.Pipeline.Value
import Idealize.ShloMosaic.Lib.ValueIdx
import Idealize.ShloMosaic.Lib.IdealHost
import Idealize.ShloMosaic.PureOps.Ideal.Laws

/-!
Where the two programs meet, over the extended reals.

* The reference's `dot_general` of `x` and `W` is, entry by entry, the sum `∑ k, x (r, k) · W (k, c)` that the kernel's
  ten row blocks hold (`lin_eq_dot`): commutativity and associativity of the sum are all it takes, and those hold on the
  extended reals without any finiteness.
* The aggregation stretch is the same operations in both programs (`agg_same`).
* The closing stretch: the reference broadcasts the bias and the slope from `[128]` through `[1, 128]` to the whole array,
  the kernel reshapes them to `[1, 128]` and broadcasts inside each block; either way entry `(r, c)` sees `b c` and `a c`,
  and both apply `v ↦ where(v > 0, v, a c · v)` to `v = A (r, c) + b c` with the factors in the same order (`epi_eq`).
-/

set_option maxRecDepth 16384

noncomputable section

open Idealize.ShloMosaic Idealize.ShloMosaic.TcCoe Idealize.SL.Sem Idealize.ShloMosaic.ValueIdx

namespace Cert.Bridge

/-! ## The matrix product -/

theorem lhs_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl
theorem lhs_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem rhs_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem rhs_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl

/-- The host's matrix product over the extended reals is the kernel's sum of products, entry by entry. -/
theorem lin_eq_dot (x : FVec Ideal Cert.ReferenceIdeal.S50000x256 .f32) (w : FVec Ideal Cert.ReferenceIdeal.S256x128 .f32) :
    Cert.KernelIdeal.Lin.lin x w = Host.dotGeneral (F := Ideal) Cert.ReferenceIdeal.dot_S50000x256_S256x128_S50000x128_1_0_0_1_n_n none x w := by
  funext i
  unfold Cert.KernelIdeal.Lin.lin
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = Cert.KernelIdeal.Lin.lrow i k := funext fun a => Fin.ext (by
    match a with
    | ⟨0, _⟩ => exact lhs_0 _ _
    | ⟨1, _⟩ => exact (lhs_1 _ _).trans hk)
  have er : Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = Cert.KernelIdeal.Lin.rcol i k := funext fun a => Fin.ext (by
    match a with
    | ⟨0, _⟩ => exact (rhs_0 _ _).trans hk
    | ⟨1, _⟩ => exact rhs_1 _ _)
  rw [el, er]

/-! ## The aggregation stretch -/

/-- The two programs' aggregation stretches are the same operations. -/
theorem agg_same {F : FTy → Type} [FloatOps F] (h : (⟨Cert.KernelIdeal.S50000x128, .f32⟩ : BufTy).Contents (Elt F))
    (ei : (⟨Cert.KernelIdeal.S2x800000, .i32⟩ : BufTy).Contents (Elt F)) :
    Cert.KernelIdeal.Chain.agg h ei = Cert.ReferenceIdeal.Bridge.agg h ei := rfl

/-! ## The closing stretch -/

/-- The channel of an entry as an index of a `[128]` vector. -/
abbrev chan1 (i : Cert.KernelIdeal.S50000x128.Idx) : Cert.KernelIdeal.S128.Idx := fun a => Cert.KernelIdeal.Act.chan i a.succ

/-- A `[128]` vector reshaped to a `[1, 128]` row, at an entry's channel. -/
theorem row_reshape (v : Cert.KernelIdeal.S128.Idx → EReal) (h : Cert.KernelIdeal.S128.ShapeCasts Cert.KernelIdeal.S1x128)
    (i : Cert.KernelIdeal.S50000x128.Idx) :
    shapeCast Cert.KernelIdeal.S1x128 v h (Cert.KernelIdeal.Act.chan i) = v (chan1 i) :=
  shapeCast_addUnit_apply ![128] v h (Cert.KernelIdeal.Act.chan i)

/-- A `[128]` vector broadcast through `[1, 128]` to the whole array, at an entry. -/
theorem row_bcast (v : Cert.KernelIdeal.S128.Idx → EReal)
    (h1 : Cert.KernelIdeal.S128.BroadcastsInDim Cert.KernelIdeal.S1x128 ![1])
    (h2 : Cert.KernelIdeal.S1x128.BroadcastsInDim Cert.KernelIdeal.S50000x128 ![0, 1])
    (i : Cert.KernelIdeal.S50000x128.Idx) :
    broadcastInDim Cert.KernelIdeal.S50000x128 ![0, 1] h2 (broadcastInDim Cert.KernelIdeal.S1x128 ![1] h1 v) i = v (chan1 i) := by
  rw [broadcastInDim_apply ![0, 1] h2 _ i (Cert.KernelIdeal.Act.chan i) (fun a => by
    match a with
    | ⟨0, _⟩ => rfl
    | ⟨1, _⟩ => rfl)]
  exact broadcastInDim_apply ![1] h1 v (Cert.KernelIdeal.Act.chan i) (chan1 i) (fun a => by
    match a with
    | ⟨0, _⟩ => rfl)

/-- Bias and activation: the kernel's, over the reshaped rows, is the reference's, over the broadcast vectors. -/
theorem epi_eq (A : Cert.KernelIdeal.S50000x128.Idx → EReal) (b a : Cert.KernelIdeal.S128.Idx → EReal)
    (hs : Cert.KernelIdeal.S128.ShapeCasts Cert.KernelIdeal.S1x128) :
    Cert.KernelIdeal.Act.act A (shapeCast Cert.KernelIdeal.S1x128 b hs) (shapeCast Cert.KernelIdeal.S1x128 a hs)
      = Cert.ReferenceIdeal.Bridge.epi (F := Ideal) A b a := by
  funext i
  unfold Cert.KernelIdeal.Act.act Cert.KernelIdeal.Act.act1 Cert.ReferenceIdeal.Bridge.epi
  rw [select_apply, cmpf_apply, mulf_apply, addf_apply, row_reshape, row_reshape, row_bcast, row_bcast,
    broadcastInDim_scalar_apply]
  rfl

/-! ## The two results -/

/-- The kernel's result — the activation of the aggregation of its own product, over the reshaped rows — is the
    reference's composed result on the same arguments. -/
theorem result_eq (x : FVec Ideal Cert.KernelIdeal.S50000x256 .f32) (ei : (⟨Cert.KernelIdeal.S2x800000, .i32⟩ : BufTy).Contents (Elt Ideal))
    (w : FVec Ideal Cert.KernelIdeal.S256x128 .f32) (b a : Cert.KernelIdeal.S128.Idx → EReal)
    (hs : Cert.KernelIdeal.S128.ShapeCasts Cert.KernelIdeal.S1x128) :
    Cert.KernelIdeal.Act.act (Cert.KernelIdeal.Chain.agg (F := Ideal) (Cert.KernelIdeal.Lin.lin x w) ei)
        (shapeCast Cert.KernelIdeal.S1x128 b hs) (shapeCast Cert.KernelIdeal.S1x128 a hs)
      = Cert.ReferenceIdeal.Bridge.epi (F := Ideal)
          (Cert.ReferenceIdeal.Bridge.agg (F := Ideal) (Host.dotGeneral (F := Ideal) Cert.ReferenceIdeal.dot_S50000x256_S256x128_S50000x128_1_0_0_1_n_n none x w) ei) b a := by
  rw [epi_eq, agg_same, lin_eq_dot]

end Cert.Bridge

end
-- ==== Proof.lean ====
/-
  A graph-convolution layer with a per-channel leaky rectifier, against its jnp reference, over the extended reals.

  The layer is `out = act(segment_sum((x · W)[src] · norm, dst) + b)` where `src`, `dst` are the edge lists with self loops
  appended, `norm = dinv[src] · dinv[dst]` the symmetric degree normalisation and `act v = where(v > 0, v, a · v)` per channel.
  The kernel's program computes `x · W` in a first pallas_call (ten blocks of 5000 rows, bf16 operands, an f32
  accumulator from zero), runs the gather / scatter-add stretch on the host exactly as the reference does, and applies
  bias and activation in a second pallas_call (again ten row blocks). At the ideal instance rounding to bf16 is the
  identity, so each block of the first call holds the plain sums `∑ k, x (r, k) · W (k, c)`, which is what the host's
  `dot_general` is; the middle stretch is one and the same function of that product and of the edge list in both
  programs; and the closing stretch reads the same bias and slope at every entry. No finiteness of the inputs is used:
  the only law between the two sides is that a finite sum does not depend on how it is grouped or ordered.

  Modules: `Region0` (the first call's array is `x · W`), `Region1` (the second call's array is the activation of what
  it reads), `HostChain` (what the second call reads, as terms of what the first left), `KRun` (the run of the kernel's
  program with its result array named), `RefRun` / `RefTerm` (the reference's run and its result cut into the same three
  stretches), `Bridge` (the stretches agree). Here: the kernel's run read to its value, and the five claims.
-/
import proofs.«157456_j10007273799960_1_alg».proof.Defs
import proofs.«157456_j10007273799960_1_alg».proof.Proof.Gen.Kernel
import proofs.«157456_j10007273799960_1_alg».proof.Proof.Gen.Kernel.Skeleton
import proofs.«157456_j10007273799960_1_alg».proof.Proof.Gen.Kernel.Launch
import proofs.«157456_j10007273799960_1_alg».proof.Proof.Gen.Kernel.Points
import proofs.«157456_j10007273799960_1_alg».proof.Proof.Gen.Kernel.Frame
import proofs.«157456_j10007273799960_1_alg».proof.Proof.Gen.KernelIdeal
import proofs.«157456_j10007273799960_1_alg».proof.Proof.Gen.KernelIdeal.Skeleton
import proofs.«157456_j10007273799960_1_alg».proof.Proof.Gen.KernelIdeal.Launch
import proofs.«157456_j10007273799960_1_alg».proof.Proof.Gen.KernelIdeal.Points
import proofs.«157456_j10007273799960_1_alg».proof.Proof.Gen.KernelIdeal.Frame
import proofs.«157456_j10007273799960_1_alg».proof.Proof.Gen.ReferenceIdeal
import proofs.«157456_j10007273799960_1_alg».proof.Proof.Gen.Pre_finite_inputs
import proofs.«157456_j10007273799960_1_alg».proof.Proof.KRun
import proofs.«157456_j10007273799960_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-! ## The kernel's run, read -/

section KernelValue

open Cert.KernelIdeal Cert.KernelIdeal.Gen

variable (m : (ℓ : Loc nD τ sig) → Buf (Elt Ideal) ℓ) (ρ : Dev nD → PrngReg)

/-- The kernel's result as a function of its arguments: the activation, over the bias and slope reshaped to rows, of
    the aggregation of `x · W` along the edge list. -/
def kres (c : Dev nD) : Buf (Elt Ideal) ((c : Thread nD τ).loc main_v46) :=
  Act.act (Chain.agg (F := Ideal) (Lin.lin (m ((c : Thread nD τ).loc main_arg0)) (m ((c : Thread nD τ).loc main_arg2))) (m ((c : Thread nD τ).loc main_arg1)))
    (shapeCast S1x128 (m ((c : Thread nD τ).loc main_arg3)) shapeCasts_S128_S1x128)
    (shapeCast S1x128 (m ((c : Thread nD τ).loc main_arg4)) shapeCasts_S128_S1x128)

/-- What the first call leaves in its result array: `x · W` of the launch contents (the call's arrays are found as
    launched: nothing runs before it). -/
theorem first_call (c : Dev nD) :
    W1 m ρ c (Proc.devRef .tc main_v0) = Lin.lin (m ((c : Thread nD τ).loc main_arg0)) (m ((c : Thread nD τ).loc main_arg2)) :=
  (W1_arr m ρ c 2).trans (Lin.final (V0 m ρ) c)

/-- The result buffer at the last boundary of @main is `kres`: the second call's write-backs tile it with the activation
    of what the call reads, which the host stretches computed from what the first call left. -/
theorem last_boundary (c : Dev nD) : W5 m ρ c (Proc.devRef .tc main_v46) = kres m c := by
  refine (W5_arr m ρ c 3).trans ((Act.final (V4 m ρ) c).trans ?_)
  rw [Chain.v43_eq, Chain.v44_eq, Chain.v45_eq, first_call]
  rfl

/-- Every weakly fair execution of the kernel's program ends with its result array at `kres` and its arguments as
    launched. -/
theorem kernel_run : θ_run defs (onTc (τ := τ) (main (F := Ideal))) ⟨m, fun _ => 0, ρ⟩ (fun r => ∀ c : Dev nD,
      r.2.mem ((c.tc : Thread nD τ).loc main_v46) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (last_boundary m ρ c), (h c).2⟩)
    (Cert.KernelIdeal.Named.run_named (F := Ideal) m ρ)

end KernelValue

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing in this kernel. -/
theorem preserves : Cert.preserves_Kernel_KernelIdeal := trivial

/-- From memories that agree on the five arguments both programs end with the same result array: the kernel's at
    `kres`, the reference's at its composed term, which is `kres` of the same arguments stretch by stretch. -/
theorem algebraic : Cert.algebraic_KernelIdeal_ReferenceIdeal := by
  intro m ρ m' ρ' _ hagree
  refine ⟨fun c => kres m c, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Bridge.res_eq, (hagree c).1, (hagree c).2.1, (hagree c).2.2.1, (hagree c).2.2.2.1, (hagree c).2.2.2.2]
  exact (Cert.Bridge.result_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
